-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S11008x2048 : Shape := ⟨2, ![11008, 2048]⟩
abbrev S11008 : Shape := ⟨1, ![11008]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S2x2048x4096 .f32) (main_arg1 : IVec S11008x2048 32) (main_arg2 : FVec F S11008 .f32) (main_arg3 : FVec F S11008 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S2x2048x4096 : Shape := ⟨3, ![2, 2048, 4096]⟩
abbrev S11008x2048 : Shape := ⟨2, ![11008, 2048]⟩
abbrev S11008 : Shape := ⟨1, ![11008]⟩
abbrev S_ : Shape := ⟨0, ![]⟩
abbrev S11008x2048x1 : Shape := ⟨3, ![11008, 2048, 1]⟩
abbrev S11008x2048x2 : Shape := ⟨3, ![11008, 2048, 2]⟩
abbrev S11008x4096 : Shape := ⟨2, ![11008, 4096]⟩
abbrev S4096x4096 : Shape := ⟨2, ![4096, 4096]⟩
abbrev S1x11008 : Shape := ⟨2, ![1, 11008]⟩
abbrev S4096x11008 : Shape := ⟨2, ![4096, 11008]⟩
abbrev S2x2048x11008 : Shape := ⟨3, ![2, 2048, 11008]⟩
abbrev S512x4096 : Shape := ⟨2, ![512, 4096]⟩
abbrev S256x4096 : Shape := ⟨2, ![256, 4096]⟩
abbrev S1x256 : Shape := ⟨2, ![1, 256]⟩
abbrev S512x256 : Shape := ⟨2, ![512, 256]⟩

abbrev nBuf : Space → Nat
  | .hbm => 29
  | .vmem => 10
  | .smem => 0
  | _ => 0

abbrev bufTy : (tb : Table) → Fin (tcTables nBuf tb) → BufTy
  | .hbm, ⟨0, _⟩ => ⟨S2x2048x4096, .f32⟩
  | .hbm, ⟨1, _⟩ => ⟨S11008x2048, .i32⟩
  | .hbm, ⟨2, _⟩ => ⟨S11008, .f32⟩
  | .hbm, ⟨3, _⟩ => ⟨S11008, .f32⟩
  | .hbm, ⟨4, _⟩ => ⟨S_, .i32⟩
  | .hbm, ⟨5, _⟩ => ⟨S11008x2048, .i32⟩
  | .hbm, ⟨6, _⟩ => ⟨S11008x2048, .i32⟩
  | .hbm, ⟨7, _⟩ => ⟨S_, .i32⟩
  | .hbm, ⟨8, _⟩ => ⟨S11008x2048, .i32⟩
  | .hbm, ⟨9, _⟩ => ⟨S11008x2048, .i32⟩
  | .hbm, ⟨10, _⟩ => ⟨S_, .i32⟩
  | .hbm, ⟨11, _⟩ => ⟨S11008x2048, .i32⟩
  | .hbm, ⟨12, _⟩ => ⟨S11008x2048, .i32⟩
  | .hbm, ⟨13, _⟩ => ⟨S_, .i32⟩
  | .hbm, ⟨14, _⟩ => ⟨S11008x2048, .i32⟩
  | .hbm, ⟨15, _⟩ => ⟨S11008x2048, .i32⟩
  | .hbm, ⟨16, _⟩ => ⟨S_, .i32⟩
  | .hbm, ⟨17, _⟩ => ⟨S11008x2048, .i32⟩
  | .hbm, ⟨18, _⟩ => ⟨S11008x2048, .i32⟩
  | .hbm, ⟨19, _⟩ => ⟨S11008x2048x1, .i32⟩
  | .hbm, ⟨20, _⟩ => ⟨S11008x2048x1, .i32⟩
  | .hbm, ⟨21, _⟩ => ⟨S11008x2048x2, .i32⟩
  | .hbm, ⟨22, _⟩ => ⟨S11008x4096, .i32⟩
  | .hbm, ⟨23, _⟩ => ⟨S11008x4096, .bf16⟩
  | .hbm, ⟨24, _⟩ => ⟨S4096x4096, .f32⟩
  | .hbm, ⟨25, _⟩ => ⟨S1x11008, .f32⟩
  | .hbm, ⟨26, _⟩ => ⟨S1x11008, .f32⟩
  | .hbm, ⟨27, _⟩ => ⟨S4096x11008, .f32⟩
  | .hbm, ⟨28, _⟩ => ⟨S2x2048x11008, .f32⟩
  | .local _ .vmem, ⟨0, _⟩ => ⟨S512x4096, .f32⟩
  | .local _ .vmem, ⟨1, _⟩ => ⟨S512x4096, .f32⟩
  | .local _ .vmem, ⟨2, _⟩ => ⟨S256x4096, .bf16⟩
  | .local _ .vmem, ⟨3, _⟩ => ⟨S256x4096, .bf16⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S512x256, .f32⟩
  | .local _ .vmem, ⟨9, _⟩ => ⟨S512x256, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_c_1 : Ref sig .tc := ⟨.hbm, 10, rfl⟩
abbrev main_call0_v4 : Ref sig .tc := ⟨.hbm, 11, rfl⟩
abbrev main_call0_v5 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_c_3 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_call0_v17 : Ref sig .tc := ⟨.hbm, 26, rfl⟩
abbrev main_call0_v18 : Ref sig .tc := ⟨.hbm, 27, rfl⟩
abbrev main_v0 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S11008x2048 : S_.BroadcastsInDim S11008x2048 (![] : Fin 0 → Fin S11008x2048.rank)
  bcast_S11008x2048_S11008x2048x1_0_1 : S11008x2048.BroadcastsInDim S11008x2048x1 (![0, 1] : Fin 2 → Fin S11008x2048x1.rank)
  concatenates_S11008x2048x1_S11008x2048x1_S11008x2048x2_d2 : Shape.Concatenates [S11008x2048x1, S11008x2048x1] S11008x2048x2 2
  shapeCasts_S11008x2048x2_S11008x4096 : S11008x2048x2.ShapeCasts S11008x4096
  shapeCasts_S2x2048x4096_S4096x4096 : S2x2048x4096.ShapeCasts S4096x4096
  shapeCasts_S11008_S1x11008 : S11008.ShapeCasts S1x11008
  shapeCasts_S4096x11008_S2x2048x11008 : S4096x11008.ShapeCasts S2x2048x11008
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x11008.size a
  hwx0_2 : ∀ i : grid0.Coords, EltTy.bits .f32 = 32 ∨ (Rect.block (s := S1x11008) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x11008.size a
  hwx0_3 : ∀ i : grid0.Coords, EltTy.bits .f32 = 32 ∨ (Rect.block (s := S1x11008) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S4096x11008.size a
  hwx0_4 : ∀ i : grid0.Coords, EltTy.bits .f32 = 32 ∨ (Rect.block (s := S4096x11008) S512x256.size (cc0_transform_4 i) (hinb0_4 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_call0_v15) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v14) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v16) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v17) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v18) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x2048x4096 : Shape := ⟨3, ![2, 2048, 4096]⟩
abbrev S11008x2048 : Shape := ⟨2, ![11008, 2048]⟩
abbrev S11008 : Shape := ⟨1, ![11008]⟩
abbrev S_ : Shape := ⟨0, ![]⟩
abbrev S11008x2048x1 : Shape := ⟨3, ![11008, 2048, 1]⟩
abbrev S11008x2048x2 : Shape := ⟨3, ![11008, 2048, 2]⟩
abbrev S11008x4096 : Shape := ⟨2, ![11008, 4096]⟩
abbrev S11008x1 : Shape := ⟨2, ![11008, 1]⟩
abbrev S2x2048x11008 : Shape := ⟨3, ![2, 2048, 11008]⟩
abbrev S1x1x11008 : Shape := ⟨3, ![1, 1, 11008]⟩

abbrev nBuf : Space → Nat
  | .hbm => 31
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S11008x2048, .i32⟩
  | .hbm, ⟨2, _⟩ => ⟨S11008, .f32⟩
  | .hbm, ⟨3, _⟩ => ⟨S11008, .f32⟩
  | .hbm, ⟨4, _⟩ => ⟨S_, .i32⟩
  | .hbm, ⟨5, _⟩ => ⟨S11008x2048, .i32⟩
  | .hbm, ⟨6, _⟩ => ⟨S11008x2048, .i32⟩
  | .hbm, ⟨7, _⟩ => ⟨S_, .i32⟩
  | .hbm, ⟨8, _⟩ => ⟨S11008x2048, .i32⟩
  | .hbm, ⟨9, _⟩ => ⟨S11008x2048, .i32⟩
  | .hbm, ⟨10, _⟩ => ⟨S_, .i32⟩
  | .hbm, ⟨11, _⟩ => ⟨S11008x2048, .i32⟩
  | .hbm, ⟨12, _⟩ => ⟨S11008x2048, .i32⟩
  | .hbm, ⟨13, _⟩ => ⟨S_, .i32⟩
  | .hbm, ⟨14, _⟩ => ⟨S11008x2048, .i32⟩
  | .hbm, ⟨15, _⟩ => ⟨S11008x2048, .i32⟩
  | .hbm, ⟨16, _⟩ => ⟨S_, .i32⟩
  | .hbm, ⟨17, _⟩ => ⟨S11008x2048, .i32⟩
  | .hbm, ⟨18, _⟩ => ⟨S11008x2048, .i32⟩
  | .hbm, ⟨19, _⟩ => ⟨S11008x2048x1, .i32⟩
  | .hbm, ⟨20, _⟩ => ⟨S11008x2048x1, .i32⟩
  | .hbm, ⟨21, _⟩ => ⟨S11008x2048x2, .i32⟩
  | .hbm, ⟨22, _⟩ => ⟨S11008x4096, .i32⟩
  | .hbm, ⟨23, _⟩ => ⟨S11008x4096, .f32⟩
  | .hbm, ⟨24, _⟩ => ⟨S11008x1, .f32⟩
  | .hbm, ⟨25, _⟩ => ⟨S11008x4096, .f32⟩
  | .hbm, ⟨26, _⟩ => ⟨S11008x4096, .f32⟩
  | .hbm, ⟨27, _⟩ => ⟨S2x2048x11008, .f32⟩
  | .hbm, ⟨28, _⟩ => ⟨S1x1x11008, .f32⟩
  | .hbm, ⟨29, _⟩ => ⟨S2x2048x11008, .f32⟩
  | .hbm, ⟨30, _⟩ => ⟨S2x2048x11008, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  bcast_S_S11008x2048 : S_.BroadcastsInDim S11008x2048 (![] : Fin 0 → Fin S11008x2048.rank)
  bcast_S11008x2048_S11008x2048x1_0_1 : S11008x2048.BroadcastsInDim S11008x2048x1 (![0, 1] : Fin 2 → Fin S11008x2048x1.rank)
  concatenates_S11008x2048x1_S11008x2048x1_S11008x2048x2_d2 : Shape.Concatenates [S11008x2048x1, S11008x2048x1] S11008x2048x2 2
  shapeCasts_S11008x2048x2_S11008x4096 : S11008x2048x2.ShapeCasts S11008x4096
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  bcast_S11008_S1x1x11008_2 : S11008.BroadcastsInDim S1x1x11008 (![2] : Fin 1 → Fin S1x1x11008.rank)
  bcast_S1x1x11008_S2x2048x11008_0_1_2 : S1x1x11008.BroadcastsInDim S2x2048x11008 (![0, 1, 2] : Fin 3 → Fin S2x2048x11008.rank)
  dot_S2x2048x4096_S11008x4096_S2x2048x11008_2_1_01_0_n_n_wf : DotDims.WF S2x2048x4096 S11008x4096 S2x2048x11008 [2] [1] [0, 1] [0] [] []

variable [Facts₀]

def dot_S2x2048x4096_S11008x4096_S2x2048x11008_2_1_01_0_n_n : DotDims S2x2048x4096 S11008x4096 S2x2048x11008 where
  lhsContracting := [2]
  rhsContracting := [1]
  lhsNonContracting := [0, 1]
  rhsNonContracting := [0]
  lhsBatch := []
  rhsBatch := []
  wf := dot_S2x2048x4096_S11008x4096_S2x2048x11008_2_1_01_0_n_n_wf

class Facts : Prop extends Facts₀ where

variable [Facts]
-- ==== Proof.KernelIndex.lean ====
/-
  The region's result as one function of the arrays it reads, and the grid's index maps.

  The grid is 8 x 43, point t = 43 i + j. Point (i, j) takes rows 512 i .. 512 i + 511 of the activations
  matrix, rows 256 j .. 256 j + 255 of the weight matrix, entries 256 j .. 256 j + 255 of scale and bias, and
  writes block (i, j) of the result.
-/
import proofs.«404023_j54631984005366_3_alg».proof.Proof.Gen.KernelIdeal.Frame
import Idealize.ShloMosaic.Lib.ValueIdx

noncomputable section

open scoped BigOperators

namespace Cert.KernelIdeal.KValue

open Cert.KernelIdeal Cert.KernelIdeal.Gen Idealize.ShloMosaic Idealize.ShloMosaic.ValueIdx

theorem offsets_zero : (![0, 0] : Fin 2 → Nat) = fun _ => 0 := funext fun a => by fin_cases a <;> rfl

/-- The region's result as one function of the four arrays it reads:
    entry (r, n) = (sum_k X[r, k] * W[n, k]) * scale[0, n] + bias[0, n]. -/
def Gk (X2 : S4096x4096.Idx → EReal) (Wf : S11008x4096.Idx → EReal) (s2 b2 : S1x11008.Idx → EReal) :
    S4096x11008.Idx → EReal :=
  fun i => (∑ k : Fin 4096, X2 (ix2 (n0 := 4096) (n1 := 4096) (i 0) k) * Wf (ix2 (n0 := 11008) (n1 := 4096) (i 1) k))
      * s2 (ix2 (n0 := 1) (n1 := 11008) 0 (i 1))
    + b2 (ix2 (n0 := 1) (n1 := 11008) 0 (i 1))

theorem Gk_apply (X2 : S4096x4096.Idx → EReal) (Wf : S11008x4096.Idx → EReal) (s2 b2 : S1x11008.Idx → EReal)
    (r : Fin 4096) (n : Fin 11008) :
    Gk X2 Wf s2 b2 (ix2 r n)
      = (∑ k : Fin 4096, X2 (ix2 r k) * Wf (ix2 n k)) * s2 (ix2 (0 : Fin 1) n) + b2 (ix2 (0 : Fin 1) n) := rfl

/-- The index maps, decided over the 344 points: the result's block indices at point t are (t / 43, t % 43);
    the activations' block follows the result's row block, the weights', scale's and bias's the result's
    column block; the other block coordinates are zero. -/
theorem idx_facts : ∀ t : Fin cfg0.N,
    win0_4.index t (0 : Fin 2) = t.val / 43 ∧ win0_4.index t (1 : Fin 2) = t.val % 43
    ∧ win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = 0 ∧ win0_2.index t (1 : Fin 2) = win0_4.index t (1 : Fin 2)
    ∧ win0_3.index t (0 : Fin 2) = 0 ∧ win0_3.index t (1 : Fin 2) = win0_4.index t (1 : Fin 2) :=
  (by decide +kernel : ∀ t : Fin grid0.N, _)

/-- so they stay inside the 8 x 43 tiling. -/
theorem idx_bounds (t : Fin cfg0.N) : win0_4.index t (0 : Fin 2) ≤ 7 ∧ win0_4.index t (1 : Fin 2) ≤ 42 := by
  obtain ⟨e0, e1, -⟩ := idx_facts t
  have hN : (t : Nat) < grid0.N := t.isLt
  rw [N_0] at hN
  omega

end Cert.KernelIdeal.KValue

end
-- ==== Proof.KernelReads.lean ====
/-
  Each input block at a grid point, as rows of the array the region finds.

  An element (a, b) of a window's block at point t sits in the window's array at
  (block index on axis 0) * (block rows) + a, (block index on axis 1) * (block columns) + b.
-/
import proofs.«404023_j54631984005366_3_alg».proof.Proof.KernelIndex
import Idealize.ShloMosaic.Lib.Pipeline.Value

noncomputable section

namespace Cert.KernelIdeal.KValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The activations' block at point t: rows 512 i .. of the matrix, every column. -/
theorem iblk0_apply (c : Dev nD) (t : Fin cfg0.N) (x : S512x4096.Idx) (k : S4096x4096.Idx)
    (hk0 : (k 0).val = win0_4.index t (0 : Fin 2) * 512 + (x 0).val) (hk1 : (k 1).val = (x 1).val) :
    (iblk m c 0 t : Vec Ideal S512x4096 .f32) x = (V m c main_call0_v15 : S4096x4096.Idx → EReal) k := by
  obtain ⟨-, -, e0, e1, -⟩ := idx_facts t
  unfold iblk
  rw [View.read_apply]
  show V m c main_call0_v15 _ = V m c main_call0_v15 _
  refine congrArg (V m c main_call0_v15 : S4096x4096.Idx → EReal) (funext fun a => Fin.ext ?_)
  match a with
  | ⟨0, _⟩ => show win0_0.index t (0 : Fin 2) * 512 + 1 * (x 0).val = (k 0).val; rw [e0, hk0]; omega
  | ⟨1, _⟩ => show win0_0.index t (1 : Fin 2) * 4096 + 1 * (x 1).val = (k 1).val; rw [e1, hk1]; omega

/-- The weights' block at point t: rows 256 j .. of the weight matrix, every column. -/
theorem iblk1_apply (c : Dev nD) (t : Fin cfg0.N) (x : S256x4096.Idx) (k : S11008x4096.Idx)
    (hk0 : (k 0).val = win0_4.index t (1 : Fin 2) * 256 + (x 0).val) (hk1 : (k 1).val = (x 1).val) :
    (iblk m c 1 t : Vec Ideal S256x4096 .bf16) x = (V m c main_call0_v14 : S11008x4096.Idx → EReal) k := by
  obtain ⟨-, -, -, -, e0, e1, -⟩ := idx_facts t
  unfold iblk
  rw [View.read_apply]
  show V m c main_call0_v14 _ = V m c main_call0_v14 _
  refine congrArg (V m c main_call0_v14 : S11008x4096.Idx → EReal) (funext fun a => Fin.ext ?_)
  match a with
  | ⟨0, _⟩ => show win0_1.index t (0 : Fin 2) * 256 + 1 * (x 0).val = (k 0).val; rw [e0, hk0]; omega
  | ⟨1, _⟩ => show win0_1.index t (1 : Fin 2) * 4096 + 1 * (x 1).val = (k 1).val; rw [e1, hk1]; omega

/-- The scale's block at point t: entries 256 j .. of the one row. -/
theorem iblk2_apply (c : Dev nD) (t : Fin cfg0.N) (x : S1x256.Idx) (k : S1x11008.Idx)
    (hk0 : (k 0).val = (x 0).val) (hk1 : (k 1).val = win0_4.index t (1 : Fin 2) * 256 + (x 1).val) :
    (iblk m c 2 t : Vec Ideal S1x256 .f32) x = (V m c main_call0_v16 : S1x11008.Idx → EReal) k := by
  obtain ⟨-, -, -, -, -, -, e0, e1, -⟩ := idx_facts t
  unfold iblk
  rw [View.read_apply]
  show V m c main_call0_v16 _ = V m c main_call0_v16 _
  refine congrArg (V m c main_call0_v16 : S1x11008.Idx → EReal) (funext fun a => Fin.ext ?_)
  match a with
  | ⟨0, _⟩ => show win0_2.index t (0 : Fin 2) * 1 + 1 * (x 0).val = (k 0).val; rw [e0, hk0]; omega
  | ⟨1, _⟩ => show win0_2.index t (1 : Fin 2) * 256 + 1 * (x 1).val = (k 1).val; rw [e1, hk1]; omega

/-- The bias's block at point t: entries 256 j .. of the one row. -/
theorem iblk3_apply (c : Dev nD) (t : Fin cfg0.N) (x : S1x256.Idx) (k : S1x11008.Idx)
    (hk0 : (k 0).val = (x 0).val) (hk1 : (k 1).val = win0_4.index t (1 : Fin 2) * 256 + (x 1).val) :
    (iblk m c 3 t : Vec Ideal S1x256 .f32) x = (V m c main_call0_v17 : S1x11008.Idx → EReal) k := by
  obtain ⟨-, -, -, -, -, -, -, -, e0, e1⟩ := idx_facts t
  unfold iblk
  rw [View.read_apply]
  show V m c main_call0_v17 _ = V m c main_call0_v17 _
  refine congrArg (V m c main_call0_v17 : S1x11008.Idx → EReal) (funext fun a => Fin.ext ?_)
  match a with
  | ⟨0, _⟩ => show win0_3.index t (0 : Fin 2) * 1 + 1 * (x 0).val = (k 0).val; rw [e0, hk0]; omega
  | ⟨1, _⟩ => show win0_3.index t (1 : Fin 2) * 256 + 1 * (x 1).val = (k 1).val; rw [e1, hk1]; omega

end Cert.KernelIdeal.KValue

end
-- ==== Proof.KernelPayload.lean ====
/-
  One grid point's result block, entry by entry.

  At a grid point the body holds 512 rows of the activations (x0 : [512, 4096]), 256 rows of the weights
  (x1 : [256, 4096]) and the matching 256 entries of scale and bias (x2, x3 : [1, 256]). It contracts the
  two row blocks over their 4096 columns into a zero accumulator, multiplies column q by scale[q] and adds
  bias[q]:
      block[p, q] = (sum over k of x0[p, k] * x1[q, k]) * x2[0, q] + x3[0, q].
  The narrowing of x0 to bfloat16 is the identity on the extended reals, and the contraction into the zero
  accumulator is the plain sum.
-/
import proofs.«404023_j54631984005366_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KValue

open Cert.KernelIdeal Cert.KernelIdeal.Gen Idealize.ShloMosaic Idealize.ShloMosaic.ValueIdx

/-! ## The contraction's operand indices, axis by axis -/

/-- the left operand is read in the output's row … -/
theorem lhs_mm_0 (i : S512x256.Idx) (q : dot_S512x4096_S256x4096_S512x256_1_1_0_0_n_n.contr.Idx) :
    (dot_S512x4096_S256x4096_S512x256_1_1_0_0_n_n.lhsIdx i q 0).val = (i 0).val := by
  unfold DotDims.lhsIdx
  rw [dif_neg (show ¬(0 : Fin S512x4096.rank) ∈ dot_S512x4096_S256x4096_S512x256_1_1_0_0_n_n.lhsBatch by decide), dif_pos (show (0 : Fin S512x4096.rank) ∈ dot_S512x4096_S256x4096_S512x256_1_1_0_0_n_n.lhsNonContracting by decide)]
  rfl
/-- … at the contracted column; -/
theorem lhs_mm_1 (i : S512x256.Idx) (q : dot_S512x4096_S256x4096_S512x256_1_1_0_0_n_n.contr.Idx) :
    (dot_S512x4096_S256x4096_S512x256_1_1_0_0_n_n.lhsIdx i q 1).val = (q ⟨0, by decide⟩).val :=
  dot_S512x4096_S256x4096_S512x256_1_1_0_0_n_n.lhsIdx_val_of_single rfl i q
/-- the right operand in the row the output's column names … -/
theorem rhs_mm_0 (i : S512x256.Idx) (q : dot_S512x4096_S256x4096_S512x256_1_1_0_0_n_n.contr.Idx) :
    (dot_S512x4096_S256x4096_S512x256_1_1_0_0_n_n.rhsIdx i q 0).val = (i 1).val := by
  unfold DotDims.rhsIdx
  rw [dif_neg (show ¬(0 : Fin S256x4096.rank) ∈ dot_S512x4096_S256x4096_S512x256_1_1_0_0_n_n.rhsBatch by decide), dif_pos (show (0 : Fin S256x4096.rank) ∈ dot_S512x4096_S256x4096_S512x256_1_1_0_0_n_n.rhsNonContracting by decide)]
  rfl
/-- … at the contracted column. -/
theorem rhs_mm_1 (i : S512x256.Idx) (q : dot_S512x4096_S256x4096_S512x256_1_1_0_0_n_n.contr.Idx) :
    (dot_S512x4096_S256x4096_S512x256_1_1_0_0_n_n.rhsIdx i q 1).val = (q ⟨0, by decide⟩).val :=
  dot_S512x4096_S256x4096_S512x256_1_1_0_0_n_n.rhsIdx_val_of_single rfl i q

/-- The contraction of a [512, 4096] block with a [256, 4096] block over their columns, into the zero
    accumulator, at (p, q): the sum over k of a[p, k] * b[q, k]. -/
theorem matmul_at (a : FVec Ideal S512x4096 .bf16) (b : FVec Ideal S256x4096 .bf16) (p : Fin 512) (q : Fin 256) :
    matmul dot_S512x4096_S256x4096_S512x256_1_1_0_0_n_n none a b (constant (F := Ideal) S512x256 .f32 0x00000000#32) (ix2 p q)
      = ∑ k : Fin 4096, a (ix2 p k) * b (ix2 q k) := by
  simp only [matmul]
  rw [Ideal.matmul_constant_zero_apply, ← Equiv.sum_comp (ValueIdx.contrEquiv1 dot_S512x4096_S256x4096_S512x256_1_1_0_0_n_n 4096 rfl rfl).symm]
  refine Finset.sum_congr rfl fun k _ => ?_
  have hk := ValueIdx.contrEquiv1_symm_val dot_S512x4096_S256x4096_S512x256_1_1_0_0_n_n 4096 rfl rfl k
  have el : dot_S512x4096_S256x4096_S512x256_1_1_0_0_n_n.lhsIdx (ix2 p q) ((ValueIdx.contrEquiv1 dot_S512x4096_S256x4096_S512x256_1_1_0_0_n_n 4096 rfl rfl).symm k) = ix2 p k := funext fun a => Fin.ext (by
    match a with
    | ⟨0, _⟩ => exact lhs_mm_0 _ _
    | ⟨1, _⟩ => exact (lhs_mm_1 _ _).trans hk)
  have er : dot_S512x4096_S256x4096_S512x256_1_1_0_0_n_n.rhsIdx (ix2 p q) ((ValueIdx.contrEquiv1 dot_S512x4096_S256x4096_S512x256_1_1_0_0_n_n 4096 rfl rfl).symm k) = ix2 q k := funext fun a => Fin.ext (by
    match a with
    | ⟨0, _⟩ => exact rhs_mm_0 _ _
    | ⟨1, _⟩ => exact (rhs_mm_1 _ _).trans hk)
  rw [el, er]

/-- The body's stored value at (p, q) of the block. -/
theorem pay_apply (x0 : Vec Ideal S512x4096 .f32) (x1 : Vec Ideal S256x4096 .bf16) (x2 x3 : Vec Ideal S1x256 .f32)
    (p : Fin 512) (q : Fin 256) :
    k0_pay1 (F := Ideal) x0 x1 x2 x3 (ix2 p q)
      = (∑ k : Fin 4096, x0 (ix2 p k) * x1 (ix2 q k)) * x2 (ix2 (0 : Fin 1) q) + x3 (ix2 (0 : Fin 1) q) := by
  unfold k0_pay1
  simp only [shapeCast_self]
  show matmul dot_S512x4096_S256x4096_S512x256_1_1_0_0_n_n none (truncf .bf16 x0 bitsLt_bf16_f32) x1 (constant (F := Ideal) S512x256 .f32 0x00000000#32) (ix2 p q)
      * broadcastTo S512x256 x2 broadcasts_S1x256_S512x256 (ix2 p q)
      + broadcastTo S512x256 x3 broadcasts_S1x256_S512x256 (ix2 p q) = _
  rw [matmul_at, broadcastTo_1b_ab_apply, broadcastTo_1b_ab_apply]
  rfl

end Cert.KernelIdeal.KValue

end
-- ==== Proof.KernelBlocks.lean ====
/-
  From one grid point's block to the whole [4096, 11008] array the region leaves.

  The grid is 8 x 43: point (i, j) takes rows 512 i .. 512 i + 511 of the activations matrix, rows
  256 j .. 256 j + 255 of the weight matrix, entries 256 j .. 256 j + 255 of scale and bias, and writes
  block (i, j) of the result. So entry (r, n) of the result is
      (sum over k of X[r, k] * W[n, k]) * scale[0, n] + bias[0, n],
  one function of the four arrays the region reads, and the 344 blocks tile the result.
-/
import proofs.«404023_j54631984005366_3_alg».proof.Proof.KernelReads
import proofs.«404023_j54631984005366_3_alg».proof.Proof.KernelPayload
import Idealize.ShloMosaic.Lib.Pipeline.Value

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## What a point writes back -/

/-- Point t writes back block t of Gk of the four arrays as the region finds them. -/
theorem flushed_eq (c : Dev nD) (t : Fin cfg0.N) :
    (dats m 0 c).flushed 4 t = ((cfg0.win 4).blk t).view.read (Elt Ideal)
      (Gk (V m c main_call0_v15) (V m c main_call0_v14) (V m c main_call0_v16) (V m c main_call0_v17)) := by
  show (cfg0.win 4).cut (grid0.coords t) ((dats m 0 c).after 4 t) = _
  rw [after0_4]
  unfold out0_4
  rw [View.canon_unit_zero offsets_zero]
  simp only [View.ld_unit_zero (S := S512x4096) offsets_zero, View.ld_unit_zero (S := S256x4096) offsets_zero,
    View.ld_unit_zero (S := S1x256) offsets_zero]
  funext j
  obtain ⟨p, q, rfl⟩ : ∃ (p : Fin 512) (q : Fin 256), j = ix2 p q := ⟨j 0, j 1, eq_ix2 j⟩
  obtain ⟨b0, b1⟩ := idx_bounds t
  have hp : p.val < 512 := p.isLt
  have hq : q.val < 256 := q.isLt
  -- the entry (p, q) of block t lands on row 512 i + p, column 256 j + q of the result
  have hemb : ((cfg0.win 4).blk t).view.emb (ix2 p q)
      = ix2 (n0 := 4096) (n1 := 11008) ⟨win0_4.index t (0 : Fin 2) * 512 + p.val, by omega⟩
          ⟨win0_4.index t (1 : Fin 2) * 256 + q.val, by omega⟩ := by
    funext a; apply Fin.ext
    match a with
    | ⟨0, _⟩ => show win0_4.index t (0 : Fin 2) * 512 + 1 * p.val = win0_4.index t (0 : Fin 2) * 512 + p.val; omega
    | ⟨1, _⟩ => show win0_4.index t (1 : Fin 2) * 256 + 1 * q.val = win0_4.index t (1 : Fin 2) * 256 + q.val; omega
  show k0_pay1 (F := Ideal) (iblk m c 0 t) (iblk m c 1 t) (iblk m c 2 t) (iblk m c 3 t) (ix2 p q)
      = Gk (V m c main_call0_v15) (V m c main_call0_v14) (V m c main_call0_v16) (V m c main_call0_v17)
          (((cfg0.win 4).blk t).view.emb (ix2 p q))
  rw [hemb, Gk_apply]
  refine (pay_apply _ _ _ _ p q).trans ?_
  have e0 : ∀ k : Fin 4096, (iblk m c 0 t : Vec Ideal S512x4096 .f32) (ix2 p k)
      = (V m c main_call0_v15 : S4096x4096.Idx → EReal)
          (ix2 (n0 := 4096) (n1 := 4096) ⟨win0_4.index t (0 : Fin 2) * 512 + p.val, by omega⟩ k) :=
    fun k => iblk0_apply m c t _ _ rfl rfl
  have e1 : ∀ k : Fin 4096, (iblk m c 1 t : Vec Ideal S256x4096 .bf16) (ix2 q k)
      = (V m c main_call0_v14 : S11008x4096.Idx → EReal)
          (ix2 (n0 := 11008) (n1 := 4096) ⟨win0_4.index t (1 : Fin 2) * 256 + q.val, by omega⟩ k) :=
    fun k => iblk1_apply m c t _ _ rfl rfl
  have e2 : (iblk m c 2 t : Vec Ideal S1x256 .f32) (ix2 (0 : Fin 1) q)
      = (V m c main_call0_v16 : S1x11008.Idx → EReal)
          (ix2 (n0 := 1) (n1 := 11008) 0 ⟨win0_4.index t (1 : Fin 2) * 256 + q.val, by omega⟩) :=
    iblk2_apply m c t _ _ rfl rfl
  have e3 : (iblk m c 3 t : Vec Ideal S1x256 .f32) (ix2 (0 : Fin 1) q)
      = (V m c main_call0_v17 : S1x11008.Idx → EReal)
          (ix2 (n0 := 1) (n1 := 11008) 0 ⟨win0_4.index t (1 : Fin 2) * 256 + q.val, by omega⟩) :=
    iblk3_apply m c t _ _ rfl rfl
  rw [e2, e3]
  refine congrArg (fun z => z * _ + _) (Finset.sum_congr rfl fun k _ => ?_)
  rw [e0 k, e1 k]

/-! ## The blocks tile the result -/

/-- An index of the result is in point t's block iff each coordinate is in the block's range. -/
theorem mem_blk (t : Fin cfg0.N) (i : S4096x11008.Idx) :
    i ∈ ((cfg0.win 4).blk t).view.set ↔ ∀ a : Fin 2, win0_4.index t a * S512x256.size a ≤ (i a).val
      ∧ (i a).val < win0_4.index t a * S512x256.size a + S512x256.size a := by
  show i ∈ ((View.whole main_call0_v18).slice (win0_4.rect t)).set ↔ _
  rw [View.set_slice_whole, Rect.mem_set_unit]
  exact Iff.rfl

/-- Entry (r, n) is in the block of point 43 (r / 512) + n / 256, whose block indices are (r / 512, n / 256). -/
theorem covered (i : S4096x11008.Idx) :
    ∃ t : Fin cfg0.N, (cfg0.win 4).flush t = true ∧ i ∈ ((cfg0.win 4).blk t).view.set := by
  have hi0 : (i 0).val < 4096 := (i 0).isLt
  have hi1 : (i 1).val < 11008 := (i 1).isLt
  have hlt : (i 0).val / 512 * 43 + (i 1).val / 256 < grid0.N := by rw [N_0]; omega
  obtain ⟨t, ht⟩ : ∃ t : Fin cfg0.N, t.val = (i 0).val / 512 * 43 + (i 1).val / 256 := ⟨⟨_, hlt⟩, rfl⟩
  obtain ⟨q0, q1, -⟩ := idx_facts t
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 256 ≤ (i 1).val ∧ (i 1).val < win0_4.index t (1 : Fin 2) * 256 + 256; omega

/-- The result array after the region: Gk of the four arrays the region found. -/
theorem final (c : Dev nD) :
    (dats m 0 c).arrAt 4 cfg0.N
      = Gk (V m c main_call0_v15) (V m c main_call0_v14) (V m c main_call0_v16) (V m c main_call0_v17) :=
  (dats m 0 c).arrAt_eq_of_cover 4 _ (fun t _ => flushed_eq m c t) covered

end Cert.KernelIdeal.KValue

end
-- ==== Proof.KernelEntry.lean ====
/-
  What the region finds in its four input arrays.

  Before the region the program unpacks the weights and lays the other arguments out as matrices:
    * the activations [2, 2048, 4096] as the matrix [4096, 4096] (row b * 2048 + s);
    * the packed words unpacked to the integer matrix [11008, 4096] (low nibble minus 8 at the even
      columns, high nibble minus 8 at the odd ones) and converted entry by entry to a float;
    * scale and bias [11008] as one-row matrices [1, 11008].
-/
import proofs.«404023_j54631984005366_3_alg».proof.Proof.Gen.KernelIdeal.Frame
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.StableHlo

variable {F : FTy → Type} [FloatOps F]

/-- The packed words unpacked to the integer weight matrix [11008, 4096]: of each word the low four bits
    minus 8 and the next four bits minus 8, side by side. -/
def unpacked (x1 : (⟨S11008x2048, .i32⟩ : BufTy).Contents (Elt F)) : (⟨S11008x4096, .i32⟩ : BufTy).Contents (Elt F) :=
  (shapeCast S11008x4096 (concatenate S11008x2048x2 2 [⟨S11008x2048x1, (broadcastInDim S11008x2048x1 ![0, 1] bcast_S11008x2048_S11008x2048x1_0_1 (subi (andi (x1) (broadcastInDim S11008x2048 ![] bcast_S_S11008x2048 (constantI S_ 32 15#32))) (broadcastInDim S11008x2048 ![] bcast_S_S11008x2048 (constantI S_ 32 8#32))))⟩, ⟨S11008x2048x1, (broadcastInDim S11008x2048x1 ![0, 1] bcast_S11008x2048_S11008x2048x1_0_1 (subi (andi (Host.shrsi (x1) (broadcastInDim S11008x2048 ![] bcast_S_S11008x2048 (constantI S_ 32 4#32))) (broadcastInDim S11008x2048 ![] bcast_S_S11008x2048 (constantI S_ 32 15#32))) (broadcastInDim S11008x2048 ![] bcast_S_S11008x2048 (constantI S_ 32 8#32))))⟩] concatenates_S11008x2048x1_S11008x2048x1_S11008x2048x2_d2) shapeCasts_S11008x2048x2_S11008x4096)

variable (m : (ℓ : Loc nD τ sig) → Buf (Elt F) ℓ)

/-- The activations as the region finds them: the argument laid out as [4096, 4096]. -/
theorem entry_x (c : Dev nD) :
    (V m c main_call0_v15 : (⟨S4096x4096, .f32⟩ : BufTy).Contents (Elt F))
      = shapeCast S4096x4096 (m ((c.tc : Thread nD τ).loc main_arg0)) shapeCasts_S2x2048x4096_S4096x4096 := by
  show StableHlo.after hostOps0 (fun b => m (c, b)) (Proc.devRef .tc main_call0_v15) = _
  after_results
  rfl

/-- The weights as the region finds them: the unpacked integers converted to floats. -/
theorem entry_w (c : Dev nD) :
    (V m c main_call0_v14 : (⟨S11008x4096, .bf16⟩ : BufTy).Contents (Elt F))
      = sitofp .bf16 (unpacked (F := F) (m ((c.tc : Thread nD τ).loc main_arg1))) := by
  show StableHlo.after hostOps0 (fun b => m (c, b)) (Proc.devRef .tc main_call0_v14) = _
  after_results
  rfl

/-- The scale as the region finds it: one row [1, 11008]. -/
theorem entry_scale (c : Dev nD) :
    (V m c main_call0_v16 : (⟨S1x11008, .f32⟩ : BufTy).Contents (Elt F))
      = shapeCast S1x11008 (m ((c.tc : Thread nD τ).loc main_arg2)) shapeCasts_S11008_S1x11008 := by
  show StableHlo.after hostOps0 (fun b => m (c, b)) (Proc.devRef .tc main_call0_v16) = _
  after_results
  rfl

/-- The bias as the region finds it: one row [1, 11008]. -/
theorem entry_bias (c : Dev nD) :
    (V m c main_call0_v17 : (⟨S1x11008, .f32⟩ : BufTy).Contents (Elt F))
      = shapeCast S1x11008 (m ((c.tc : Thread nD τ).loc main_arg3)) shapeCasts_S11008_S1x11008 := by
  show StableHlo.after hostOps0 (fun b => m (c, b)) (Proc.devRef .tc main_call0_v17) = _
  after_results
  rfl

end Cert.KernelIdeal.KValue

end
-- ==== Proof.LibGcnAlgebra.lean ====
import Mathlib.Data.EReal.Basic
import Mathlib.Data.EReal.Operations
import Mathlib.Algebra.BigOperators.Ring.Finset
import Mathlib.Algebra.BigOperators.Fin
import Mathlib.Tactic.Ring

/-!
# Algebra of a two-layer graph convolution with segment pooling, on the extended reals

Over abstract finite index types.  Addition and multiplication on the extended
reals do not distribute at the infinities, so every lemma that moves a factor
through a sum assumes its numbers are real (finite).  The pooling lemmas are
pure re-indexings of sums and need no such assumption.
-/

noncomputable section

namespace Cert.Lib.GcnAlgebra

open scoped BigOperators

/-- x is a real number (neither infinity). -/
def IsReal (x : EReal) : Prop := ∃ r : ℝ, x = (r : EReal)

theorem IsReal.zero : IsReal 0 := ⟨0, EReal.coe_zero.symm⟩

theorem IsReal.one : IsReal 1 := ⟨1, EReal.coe_one.symm⟩

theorem IsReal.coe (r : ℝ) : IsReal (r : EReal) := ⟨r, rfl⟩

theorem IsReal.natCast (k : ℕ) : IsReal (k : EReal) := ⟨(k : ℝ), EReal.coe_natCast.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases max_choice x y with h | h
  · rw [h]; exact hx
  · rw [h]; exact hy

theorem IsReal.sum {ι : Type} (S : Finset ι) (f : ι → EReal) (hf : ∀ i ∈ S, IsReal (f i)) :
    IsReal (∑ i ∈ S, f i) := by
  classical
  induction S using Finset.induction_on with
  | empty => simpa using IsReal.zero
  | insert a s ha ih =>
    rw [Finset.sum_insert ha]
    exact IsReal.add (hf a (Finset.mem_insert_self a s))
      (ih (fun i hi => hf i (Finset.mem_insert_of_mem hi)))

theorem IsReal.ite {p : Prop} [Decidable p] {x y : EReal} (hx : IsReal x) (hy : IsReal y) :
    IsReal (if p then x else y) := by
  split
  · exact hx
  · exact hy

/-- a finite sum of ones is a natural number -/
theorem IsReal.sum_const_one {ι : Type} (S : Finset ι) :
    (∑ _i ∈ S, (1 : EReal)) = ((S.card : ℕ) : EReal) := by
  rw [Finset.sum_const, nsmul_one]

/-! ### Real witnesses -/

/-- a sum of real numbers, each read as an extended real, is the real sum read as an extended real -/
private theorem coe_sum {ι : Type} (S : Finset ι) (g : ι → ℝ) :
    (∑ i ∈ S, ((g i : ℝ) : EReal)) = ((∑ i ∈ S, g i : ℝ) : EReal) := by
  classical
  induction S using Finset.induction_on with
  | empty => rw [Finset.sum_empty, Finset.sum_empty, EReal.coe_zero]
  | insert a s ha ih => rw [Finset.sum_insert ha, Finset.sum_insert ha, ih, EReal.coe_add]

/-- a real extended number is its own real part -/
private theorem IsReal.coe_toReal {x : EReal} (hx : IsReal x) : ((x.toReal : ℝ) : EReal) = x := by
  obtain ⟨r, rfl⟩ := hx
  rw [EReal.toReal_coe]

/-! ### Layer 1 -/

/-- LAYER 1, one node and one column: multiplying the aggregated sum by D afterwards is the sum of
the terms each multiplied by D. -/
theorem layer1_node {ε : Type} (S : Finset ε) (h de : ε → EReal) (D : EReal)
    (hh : ∀ e ∈ S, IsReal (h e)) (hde : ∀ e ∈ S, IsReal (de e)) (hD : IsReal D) :
    (0 + ∑ e ∈ S, h e * de e) * D = 0 + ∑ e ∈ S, h e * (de e * D) := by
  obtain ⟨d, rfl⟩ := hD
  -- both sums are real sums of the real parts
  have e1 : (∑ e ∈ S, h e * de e)
      = ((∑ e ∈ S, (h e).toReal * (de e).toReal : ℝ) : EReal) := by
    rw [← coe_sum]
    refine Finset.sum_congr rfl (fun e he => ?_)
    rw [EReal.coe_mul, (hh e he).coe_toReal, (hde e he).coe_toReal]
  have e2 : (∑ e ∈ S, h e * (de e * (d : EReal)))
      = ((∑ e ∈ S, (h e).toReal * ((de e).toReal * d) : ℝ) : EReal) := by
    rw [← coe_sum]
    refine Finset.sum_congr rfl (fun e he => ?_)
    rw [EReal.coe_mul, EReal.coe_mul, (hh e he).coe_toReal, (hde e he).coe_toReal]
  rw [e1, e2, zero_add, zero_add, ← EReal.coe_mul, Finset.sum_mul]
  congr 1
  exact Finset.sum_congr rfl (fun e _ => mul_assoc _ _ _)

/-! ### Pooling: re-indexing only -/

/-- a 0/1 mask times g, summed, is g summed over where the mask is set -/
theorem sum_mask_mul {ι : Type} [Fintype ι] (P : ι → Prop) [DecidablePred P] (g : ι → EReal) :
    (∑ i, (if P i then (1 : EReal) else 0) * g i) = ∑ i ∈ Finset.univ.filter P, g i := by
  rw [Finset.sum_filter]
  refine Finset.sum_congr rfl (fun i _ => ?_)
  by_cases hP : P i
  · rw [if_pos hP, if_pos hP, one_mul]
  · rw [if_neg hP, if_neg hP, zero_mul]

/-- T tiles of R consecutive rows are all T*R rows -/
theorem sum_tiles (T R : ℕ) (f : ℕ → EReal) :
    (∑ t : Fin T, ∑ r : Fin R, f (t.val * R + r.val)) = ∑ n : Fin (T * R), f n.val := by
  -- row r of tile t is row r + R * t of the whole; this pairing is a bijection
  rw [← Fintype.sum_prod_type' (fun (t : Fin T) (r : Fin R) => f (t.val * R + r.val)),
    ← Equiv.sum_comp finProdFinEquiv (fun n : Fin (T * R) => f n.val)]
  refine Fintype.sum_congr _ _ (fun p => ?_)
  rw [finProdFinEquiv_apply_val, Nat.mul_comm p.1.val R, Nat.add_comm]

/-- POOLING: an accumulator that is 0 + (tile 0's part) after point 0 and (previous) + (tile t's
part) after point t holds, after the last of T points, 0 + the sum of all parts. -/
theorem pool_fold (T : ℕ) (hT : 0 < T) (acc : ℕ → EReal) (part : ℕ → EReal)
    (h0 : acc 0 = 0 + part 0) (hs : ∀ t, 0 < t → t < T → acc t = acc (t - 1) + part t) :
    acc (T - 1) = 0 + ∑ t : Fin T, part t.val := by
  -- after point t the accumulator holds 0 + the parts of points 0..t
  have key : ∀ t, t < T → acc t = 0 + ∑ i ∈ Finset.range (t + 1), part i := by
    intro t
    induction t with
    | zero =>
      intro _
      rw [h0, Finset.sum_range_one]
    | succ n ih =>
      intro hn
      rw [hs (n + 1) (Nat.succ_pos n) hn, Nat.add_sub_cancel, ih (Nat.lt_of_succ_lt hn),
        Finset.sum_range_succ _ (n + 1), add_assoc]
  rw [key (T - 1) (Nat.sub_lt hT Nat.one_pos), Nat.sub_add_cancel hT,
    Fin.sum_univ_eq_sum_range part T]

/-! ### Layer 2 -/

/-- the layer-2 identity over the reals: distribute, and swap the sum over edges with the sum over
the contracted column index -/
private theorem layer2_real {ε κ : Type} [Fintype κ] (S : Finset ε) (x : ε → κ → ℝ) (a : ε → ℝ)
    (d : ℝ) (yr w : κ → ℝ) :
    (∑ k, ((∑ e ∈ S, x e k * a e) * d + yr k * (d * d)) * w k)
      = (∑ e ∈ S, (∑ k, x e k * w k) * (a e * d)) + (∑ k, yr k * w k) * (d * d) := by
  have h1 : ∀ k, ((∑ e ∈ S, x e k * a e) * d + yr k * (d * d)) * w k
      = (∑ e ∈ S, x e k * w k * (a e * d)) + yr k * w k * (d * d) := by
    intro k
    rw [add_mul, Finset.sum_mul, Finset.sum_mul]
    congr 1
    · exact Finset.sum_congr rfl (fun e _ => by ring)
    · ring
  have h2 : (∑ k, ∑ e ∈ S, x e k * w k * (a e * d))
      = ∑ e ∈ S, (∑ k, x e k * w k) * (a e * d) := by
    rw [Finset.sum_comm]
    exact Finset.sum_congr rfl (fun e _ => (Finset.sum_mul _ _ _).symm)
  have h3 : (∑ k, yr k * w k * (d * d)) = (∑ k, yr k * w k) * (d * d) :=
    (Finset.sum_mul _ _ _).symm
  rw [Finset.sum_congr rfl (fun k _ => h1 k), Finset.sum_add_distrib, h2, h3]

/-- LAYER 2, one node n and one output column j. X e k = x1[source e, k], de e = dinv[source e],
D = dinv[n], y k = x1[n, k], W k = W2[k, j], b = b2[j].
Left: the kernel (aggregate 16 columns, scale, then apply W). Right: the reference (apply W, then
aggregate and scale). -/
theorem layer2_node {ε κ : Type} [Fintype κ] (S : Finset ε) (X : ε → κ → EReal) (de : ε → EReal)
    (D : EReal) (y W : κ → EReal) (b : EReal)
    (hX : ∀ e ∈ S, ∀ k, IsReal (X e k)) (hde : ∀ e ∈ S, IsReal (de e)) (hD : IsReal D)
    (hy : ∀ k, IsReal (y k)) (hW : ∀ k, IsReal (W k)) :
    (∑ k, ((0 + ∑ e ∈ S, X e k * de e) * D + y k * (D * D)) * W k) + b
      = ((0 + ∑ e ∈ S, (∑ k, X e k * W k) * (de e * D)) + (∑ k, y k * W k) * (D * D)) + b := by
  obtain ⟨d, rfl⟩ := hD
  choose yr hyr using hy
  choose w hw using hW
  obtain rfl : y = fun k => ((yr k : ℝ) : EReal) := funext hyr
  obtain rfl : W = fun k => ((w k : ℝ) : EReal) := funext hw
  -- the bias b may be anything: the two sides agree before it is added
  congr 1
  -- the kernel's side is a real number
  have hL : (∑ k, ((0 + ∑ e ∈ S, X e k * de e) * (d : EReal)
        + ((yr k : ℝ) : EReal) * ((d : EReal) * (d : EReal))) * ((w k : ℝ) : EReal))
      = ((∑ k, ((∑ e ∈ S, (X e k).toReal * (de e).toReal) * d + yr k * (d * d)) * w k : ℝ)
          : EReal) := by
    rw [← coe_sum]
    refine Finset.sum_congr rfl (fun k _ => ?_)
    have hk : (∑ e ∈ S, X e k * de e)
        = ((∑ e ∈ S, (X e k).toReal * (de e).toReal : ℝ) : EReal) := by
      rw [← coe_sum]
      refine Finset.sum_congr rfl (fun e he => ?_)
      rw [EReal.coe_mul, (hX e he k).coe_toReal, (hde e he).coe_toReal]
    rw [hk, zero_add, EReal.coe_mul, EReal.coe_add, EReal.coe_mul, EReal.coe_mul, EReal.coe_mul]
  -- the reference's aggregated part is a real number
  have hR1 : (∑ e ∈ S, (∑ k, X e k * ((w k : ℝ) : EReal)) * (de e * (d : EReal)))
      = ((∑ e ∈ S, (∑ k, (X e k).toReal * w k) * ((de e).toReal * d) : ℝ) : EReal) := by
    rw [← coe_sum]
    refine Finset.sum_congr rfl (fun e he => ?_)
    have hk : (∑ k, X e k * ((w k : ℝ) : EReal))
        = ((∑ k, (X e k).toReal * w k : ℝ) : EReal) := by
      rw [← coe_sum]
      refine Finset.sum_congr rfl (fun k _ => ?_)
      rw [EReal.coe_mul, (hX e he k).coe_toReal]
    rw [hk, EReal.coe_mul, EReal.coe_mul, (hde e he).coe_toReal]
  -- the reference's self-loop part is a real number
  have hR2 : (∑ k, ((yr k : ℝ) : EReal) * ((w k : ℝ) : EReal)) * ((d : EReal) * (d : EReal))
      = (((∑ k, yr k * w k) * (d * d) : ℝ) : EReal) := by
    have hk : (∑ k, ((yr k : ℝ) : EReal) * ((w k : ℝ) : EReal))
        = ((∑ k, yr k * w k : ℝ) : EReal) := by
      rw [← coe_sum]
      exact Finset.sum_congr rfl (fun k _ => (EReal.coe_mul _ _).symm)
    rw [hk, ← EReal.coe_mul, ← EReal.coe_mul]
  rw [hL, hR1, hR2, zero_add, ← EReal.coe_add, layer2_real]

end Cert.Lib.GcnAlgebra
-- ==== Proof.Spec.lean ====
/-
  The function both programs compute, and the one law that joins them.

  A linear layer with 4-bit weights: the packed integers are unpacked to an integer matrix W : [11008, 4096]
  (each entry in [-8, 7]); the result at (b, s, o) is
      (sum over k of x[b, s, k] * W[o, k]) * scale[o] + bias[o].
  The kernel multiplies by scale[o] AFTER the contraction over k; the reference scales every row of W first,
      sum over k of x[b, s, k] * (W[o, k] * scale[o]) + bias[o].
  On the extended reals a factor moves through a finite sum only when the numbers are real, so the law
  assumes x and scale real (the integer W[o, k] is real as it stands); bias may be anything, it is added last
  on both sides.
-/
import Idealize.ShloMosaic.Lib.ValueIdx
import proofs.«404023_j54631984005366_3_alg».proof.Proof.LibGcnAlgebra

noncomputable section

open scoped BigOperators

namespace Cert.QLinear

open Idealize.ShloMosaic Idealize.ShloMosaic.ValueIdx Cert.Lib.GcnAlgebra

/-- activations x : [2, 2048, 4096] -/
abbrev SX : Shape := ⟨3, ![2, 2048, 4096]⟩
/-- the unpacked integer weights W : [11008, 4096] -/
abbrev SW : Shape := ⟨2, ![11008, 4096]⟩
/-- scale and bias : [11008] -/
abbrev SV : Shape := ⟨1, ![11008]⟩
/-- the result : [2, 2048, 11008] -/
abbrev SO : Shape := ⟨3, ![2, 2048, 11008]⟩

/-- The layer's result, index by index, with the scale applied after the contraction:
    G[b, s, o] = (sum_k x[b, s, k] * W[o, k]) * scale[o] + bias[o], the integer W[o, k] read as a real. -/
def G (X : SX.Idx → EReal) (W : SW.Idx → BitVec 32) (sc bi : SV.Idx → EReal) : SO.Idx → EReal :=
  fun i => (∑ k : Fin 4096, X (ix3 (n0 := 2) (n1 := 2048) (n2 := 4096) (i 0) (i 1) k)
      * (((W (ix2 (n0 := 11008) (n1 := 4096) (i 2) k)).toInt : ℝ) : EReal)) * sc (ix1 (n := 11008) (i 2))
    + bi (ix1 (n := 11008) (i 2))

/-- Scaling the contracted sum is contracting against the scaled row, for real x and a real scale. -/
theorem scale_after_eq_scale_before (x : Fin 4096 → EReal) (w : Fin 4096 → ℝ) (s : EReal)
    (hx : ∀ k, IsReal (x k)) (hs : IsReal s) :
    (∑ k, x k * ((w k : ℝ) : EReal)) * s = ∑ k, x k * (((w k : ℝ) : EReal) * s) := by
  have h := layer1_node Finset.univ x (fun k => ((w k : ℝ) : EReal)) s (fun k _ => hx k)
    (fun k _ => IsReal.coe (w k)) hs
  rwa [zero_add, zero_add] at h

end Cert.QLinear

end
-- ==== Proof.KernelRun.lean ====
/-
  The kernel program's run, read: its result buffer ends at G of the arguments.

  After the region the program reshapes the [4096, 11008] array to [2, 2048, 11008]: entry (b, s, o) is
  entry (2048 b + s, o) of the array. The arrays the region read were themselves re-laid arguments —
  X[2048 b + s, k] = x[b, s, k], scale[0, o] = scale[o], bias[0, o] = bias[o] — and the weights the unpacked
  integers read as reals, so the result at (b, s, o) is
      (sum over k of x[b, s, k] * W[o, k]) * scale[o] + bias[o].
-/
import proofs.«404023_j54631984005366_3_alg».proof.Proof.KernelBlocks
import proofs.«404023_j54631984005366_3_alg».proof.Proof.KernelEntry
import proofs.«404023_j54631984005366_3_alg».proof.Proof.Spec
import Idealize.ShloMosaic.Lib.StableHlo.Run
import Idealize.ShloMosaic.Lib.ValueLayout

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

/-- The region's result over re-laid arguments, reshaped to [2, 2048, 11008], is G of the arguments. -/
theorem reshape_Gk (X : S2x2048x4096.Idx → EReal) (W : S11008x4096.Idx → BitVec 32) (sc bi : S11008.Idx → EReal) :
    shapeCast S2x2048x11008
        (Gk (shapeCast S4096x4096 X shapeCasts_S2x2048x4096_S4096x4096) (sitofp (F := Ideal) .bf16 W)
          (shapeCast S1x11008 sc shapeCasts_S11008_S1x11008) (shapeCast S1x11008 bi shapeCasts_S11008_S1x11008))
        shapeCasts_S4096x11008_S2x2048x11008
      = Cert.QLinear.G X W sc bi := by
  funext i
  obtain ⟨b, s, o, rfl⟩ : ∃ (b : Fin 2) (s : Fin 2048) (o : Fin 11008), i = ix3 b s o := ⟨i 0, i 1, i 2, eq_ix3 i⟩
  have hb : b.val < 2 := b.isLt
  have hs : s.val < 2048 := s.isLt
  rw [shapeCast_apply _ shapeCasts_S4096x11008_S2x2048x11008 (ix3 b s o)
    (ix2 (n0 := 4096) (n1 := 11008) ⟨b.val * 2048 + s.val, by omega⟩ o) (by
      rw [Shape.rowMajor_val_two, Shape.rowMajor_val_three]
      show (b.val * 2048 + s.val) * 11008 + o.val = (b.val * 2048 + s.val) * 11008 + o.val
      rfl)]
  rw [Gk_apply, shapeCast_a_1a_apply, shapeCast_a_1a_apply]
  unfold Cert.QLinear.G
  refine congrArg (fun z => z * _ + _) (Finset.sum_congr rfl fun k _ => ?_)
  rw [shapeCast_apply X shapeCasts_S2x2048x4096_S4096x4096
    (ix2 (n0 := 4096) (n1 := 4096) ⟨b.val * 2048 + s.val, by omega⟩ k) (ix3 b s k) (by
      rw [Shape.rowMajor_val_three, Shape.rowMajor_val_two]
      show (b.val * 2048 + s.val) * 4096 + k.val = (b.val * 2048 + s.val) * 4096 + k.val
      rfl)]
  rfl

variable (m : (ℓ : Loc nD τ sig) → Buf (Elt Ideal) ℓ) (ρ : Dev nD → PrngReg)

/-- What the program's result buffer ends holding. -/
abbrev resultOf (c : Dev nD) : Cert.QLinear.SO.Idx → EReal :=
  Cert.QLinear.G (m ((c.tc : Thread nD τ).loc main_arg0)) (unpacked (F := Ideal) (m ((c.tc : Thread nD τ).loc main_arg1)))
    (m ((c.tc : Thread nD τ).loc main_arg2)) (m ((c.tc : Thread nD τ).loc main_arg3))

/-- The result buffer after the reshape that follows the region. -/
theorem tail_result (c : Dev nD) :
    (Pipeline.afterTail₀ cfgs (dats m) 0 (V0 m) [hostOps1] c main_v0 : Cert.QLinear.SO.Idx → EReal) = resultOf m c := by
  unfold Pipeline.afterTail₀
  show StableHlo.after hostOps1 _ (Proc.devRef .tc main_v0) = _
  after_results
  rw [(Pipeline.withArrays_arr spec0 launch0.win.arr_inj c _ _ 4).trans (final m c)]
  rw [entry_x, entry_w, entry_scale, entry_bias]
  exact reshape_Gk _ _ _ _

/-- The kernel program's run: the result buffer at G of the arguments, the arguments unchanged. -/
theorem run : θ_run defs (onTc (τ := τ) (main (F := Ideal))) ⟨m, fun _ => 0, ρ⟩ fun r => ∀ c : Dev nD,
      r.2.mem ((c.tc : Thread nD τ).loc main_v0) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v0 (Pipeline.mem_restRefs_of main_v0 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.RefIsG.lean ====
/-
  The reference's result is G.

  Read one operation at a time, the reference's result at (b, s, o) is
      (sum over k of x[b, s, k] * (W[o, k] * scale[o])) + bias[o],
  W the unpacked integer matrix converted entry by entry to a real. The scale, real, leaves the sum.
-/
import proofs.«404023_j54631984005366_3_alg».proof.Proof.Gen.ReferenceIdeal.Read
import proofs.«404023_j54631984005366_3_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Lib.GcnAlgebra

/-- the contraction reads x at (b, s, k) -/
theorem lidx_eq (i : S2x2048x11008.Idx) (k : Fin 4096) :
    lidx_main_v18 i k = ix3 (n0 := 2) (n1 := 2048) (n2 := 4096) (i 0) (i 1) k :=
  funext fun a => by match a with | ⟨0, _⟩ => rfl | ⟨1, _⟩ => rfl | ⟨2, _⟩ => rfl

/-- and the scaled weights at (o, k) -/
theorem ridx_eq (i : S2x2048x11008.Idx) (k : Fin 4096) :
    ridx_main_v18 i k = ix2 (n0 := 11008) (n1 := 4096) (i 2) k :=
  funext fun a => by match a with | ⟨0, _⟩ => rfl | ⟨1, _⟩ => rfl

/-- the scale broadcast along a row of W is scale[o] -/
theorem scale_idx_eq (j : S11008x4096.Idx) :
    idx_main_v15 (idx_main_v16 j) = ix1 (n := 11008) (j 0) :=
  funext fun a => by match a with | ⟨0, _⟩ => rfl

/-- the bias broadcast over (b, s) is bias[o] -/
theorem bias_idx_eq (i : S2x2048x11008.Idx) :
    idx_main_v19 (idx_main_v20 i) = ix1 (n := 11008) (i 2) :=
  funext fun a => by match a with | ⟨0, _⟩ => rfl

/-- The reference's result, for real activations and a real scale, is G of the arguments and the unpacked
    integer weights. -/
theorem result_eq (x0 : (⟨S2x2048x4096, .f32⟩ : BufTy).Contents (Elt Ideal))
    (x1 : (⟨S11008x2048, .i32⟩ : BufTy).Contents (Elt Ideal))
    (x2 x3 : (⟨S11008, .f32⟩ : BufTy).Contents (Elt Ideal))
    (hx : ∀ j, IsReal (x0 j)) (hs : ∀ j, IsReal (x2 j)) :
    val_main_v21 (F := Ideal) x0 x1 x2 x3 = Cert.QLinear.G x0 (val_main_v13 (F := Ideal) x1) x2 x3 := by
  funext i
  rw [val_main_v21_apply, val_main_v18_apply, val_main_v20_apply, val_main_v19_apply, bias_idx_eq]
  simp only [val_main_v17_apply, val_main_v14_apply, val_main_v16_apply, val_main_v15_apply, scale_idx_eq,
    lidx_eq, ridx_eq]
  show (∑ k : Fin 4096, x0 (ix3 (n0 := 2) (n1 := 2048) (n2 := 4096) (i 0) (i 1) k)
      * ((((val_main_v13 (F := Ideal) x1 (ix2 (n0 := 11008) (n1 := 4096) (i 2) k)).toInt : ℝ) : EReal)
        * x2 (ix1 (n := 11008) (i 2)))) + x3 (ix1 (n := 11008) (i 2)) = _
  unfold Cert.QLinear.G
  rw [Cert.QLinear.scale_after_eq_scale_before
    (fun k => x0 (ix3 (n0 := 2) (n1 := 2048) (n2 := 4096) (i 0) (i 1) k))
    (fun k => ((val_main_v13 (F := Ideal) x1 (ix2 (n0 := 11008) (n1 := 4096) (i 2) k)).toInt : ℝ))
    (x2 (ix1 (n := 11008) (i 2))) (fun k => hx _) (hs _)]

end Cert.ReferenceIdeal.RefValue

end
-- ==== Proof.Finite.lean ====
/-
  From the precondition to "every activation and every scale is a real number".

  The precondition is the conjunction of three "all |v| < +inf" tests, over the activations, the scale and
  the bias. An extended real whose absolute value is below +inf is neither infinity, so it is a real.
-/
import proofs.«404023_j54631984005366_3_alg».proof.Pre_finite_inputs
import proofs.«404023_j54631984005366_3_alg».proof.Proof.Gen.Pre_finite_inputs
import proofs.«404023_j54631984005366_3_alg».proof.Proof.LibGcnAlgebra
import Idealize.ShloMosaic.Lib.ReduceAll
import Idealize.ShloMosaic.Lib.ValueIdx
import Idealize.ShloMosaic.PureOps.Ideal.Laws

noncomputable section

namespace Cert.Pre_finite_inputs.Finite

open Cert.Pre_finite_inputs Cert.Pre_finite_inputs.Gen Idealize.ShloMosaic Idealize.ShloMosaic.ValueIdx
open Cert.Lib.GcnAlgebra

/-- the scalar shape has one index -/
instance : Subsingleton S_.Idx := ⟨fun a b => funext fun d => d.elim0⟩

/-- the word 0x7F800000 is +inf -/
theorem inf_word : Ideal.ofBits .f32 0x7F800000#32 = (⊤ : EReal) := by
  simp [Ideal.ofBits, Ideal.ieee]

/-- An extended real with max(x, -x) < +inf is a real. -/
theorem isReal_of_abs_lt_top (x : EReal) (h : Ideal.cmp .olt (max x (-x)) ⊤ = 1#1) : IsReal x := by
  induction x using EReal.rec with
  | bot => simp [Ideal.cmp] at h
  | top => simp [Ideal.cmp] at h
  | coe r => exact IsReal.coe r

/-- One element of an "all |v| < +inf" test that came out true. -/
theorem isReal_of_test {S : Shape} (a : FVec Ideal S .f32) (hb : S_.BroadcastsInDim S (![] : Fin 0 → Fin S.rank))
    (i : S.Idx)
    (h : cmpf .olt (Host.absf a) (broadcastInDim S ![] hb (constant (F := Ideal) S_ .f32 0x7F800000#32)) i = 1#1) :
    IsReal (a i) := by
  refine isReal_of_abs_lt_top (a i) ?_
  rw [← inf_word]
  exact h

/-- Under the precondition the activations and the scale hold real numbers. -/
theorem real_of_pre (x : FVec Ideal S2x2048x4096 .f32) (w : IVec S11008x2048 32) (sc bi : FVec Ideal S11008 .f32)
    (h : fn (F := Ideal) x w sc bi = fun _ => 1#1) :
    (∀ j, IsReal (x j)) ∧ (∀ j, IsReal (sc j)) := by
  have h0 := congrFun h ix0
  dsimp only [fn] at h0
  obtain ⟨h12, -⟩ := IntOp.andi_eq_one.1 h0
  obtain ⟨h1, h2⟩ := IntOp.andi_eq_one.1 h12
  exact ⟨fun j => isReal_of_test x _ j (Host.reduce_andi_all _ _ _ _ _ h1 j),
    fun j => isReal_of_test sc _ j (Host.reduce_andi_all _ _ _ _ _ h2 j)⟩

end Cert.Pre_finite_inputs.Finite

end
-- ==== Proof.lean ====
/-
  A linear layer with 4-bit weights: the kernel against its jnp reference, over the extended reals.

  Both programs unpack the packed words to the same integer matrix W : [11008, 4096] (low nibble minus 8 at
  the even columns, high nibble minus 8 at the odd ones) and compute, at (b, s, o),
      kernel:    (sum over k of x[b, s, k] * W[o, k]) * scale[o] + bias[o]
      reference:  sum over k of x[b, s, k] * (W[o, k] * scale[o]) + bias[o].
  The kernel does the contraction block by block on an 8 x 43 grid (512 rows of x against 256 rows of W per
  point), narrowing x to bfloat16 first, which is the identity on the extended reals; the reference is one
  whole contraction. The two agree because a real factor moves through a finite sum of reals: the
  precondition makes x and scale real, W is an integer, and the bias is added last on both sides.

  The frames of the two kernel programs are the generated ones; the reference's frame is its generated run
  with the result dropped; the idealization rewrote nothing, so it preserves trivially.
-/
import proofs.«404023_j54631984005366_3_alg».proof.Defs
import proofs.«404023_j54631984005366_3_alg».proof.Proof.Gen.Kernel
import proofs.«404023_j54631984005366_3_alg».proof.Proof.Gen.Kernel.Skeleton
import proofs.«404023_j54631984005366_3_alg».proof.Proof.Gen.Kernel.Launch
import proofs.«404023_j54631984005366_3_alg».proof.Proof.Gen.Kernel.Points
import proofs.«404023_j54631984005366_3_alg».proof.Proof.Gen.Kernel.Frame
import proofs.«404023_j54631984005366_3_alg».proof.Proof.Gen.KernelIdeal
import proofs.«404023_j54631984005366_3_alg».proof.Proof.Gen.KernelIdeal.Skeleton
import proofs.«404023_j54631984005366_3_alg».proof.Proof.Gen.KernelIdeal.Launch
import proofs.«404023_j54631984005366_3_alg».proof.Proof.Gen.KernelIdeal.Points
import proofs.«404023_j54631984005366_3_alg».proof.Proof.Gen.KernelIdeal.Frame
import proofs.«404023_j54631984005366_3_alg».proof.Proof.Gen.ReferenceIdeal
import proofs.«404023_j54631984005366_3_alg».proof.Proof.Gen.ReferenceIdeal.Run
import proofs.«404023_j54631984005366_3_alg».proof.Proof.Gen.ReferenceIdeal.Read
import proofs.«404023_j54631984005366_3_alg».proof.Proof.Gen.Pre_finite_inputs
import proofs.«404023_j54631984005366_3_alg».proof.Proof.KernelRun
import proofs.«404023_j54631984005366_3_alg».proof.Proof.RefIsG
import proofs.«404023_j54631984005366_3_alg».proof.Proof.Finite
import Idealize.ShloMosaic.Adequacy
import Idealize.ShloMosaic.Init

noncomputable section

namespace Cert.Proof

open Idealize.ShloMosaic Idealize.SL.Sem

/-- The two programs unpack the packed words by the same operations. -/
theorem unpacked_eq (x1 : (⟨Cert.ReferenceIdeal.S11008x2048, .i32⟩ : BufTy).Contents (Elt Ideal)) :
    Cert.ReferenceIdeal.Read.val_main_v13 (F := Ideal) x1 = Cert.KernelIdeal.KValue.unpacked (F := Ideal) x1 := rfl

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result buffer at G of the arguments and the unpacked weights: the kernel's by
    reading its blocks, the reference's by moving the real scale out of the contraction. -/
theorem algebraic : Cert.algebraic_KernelIdeal_ReferenceIdeal := by
  intro m ρ m' ρ' hpre hagree
  refine ⟨fun c => Cert.KernelIdeal.KValue.resultOf m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hs⟩ := Cert.Pre_finite_inputs.Finite.real_of_pre _ _ _ _ (hpre c)
  refine (Cert.ReferenceIdeal.Read.val_main_v21_eq _ _ _ _).trans ?_
  rw [(hagree c).1, (hagree c).2.1, (hagree c).2.2.1, (hagree c).2.2.2]
  rw [Cert.ReferenceIdeal.RefValue.result_eq _ _ _ _ hx hs, unpacked_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
